-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152 : Shape := ⟨1, ![2097152]⟩
abbrev S2048x4096 : Shape := ⟨2, ![2048, 4096]⟩
abbrev S1024x4096 : Shape := ⟨2, ![1024, 4096]⟩
abbrev S1024 : Shape := ⟨1, ![1024]⟩
abbrev S_ : Shape := ⟨0, ![]⟩

class Facts : Prop where
  bcast_S_S2097152 : S_.BroadcastsInDim S2097152 (![] : Fin 0 → Fin S2097152.rank)
  reducesTo_S2097152_S_d0 : S2097152.ReducesTo [0] S_
  h_S_ : 0 < S_.numel
  bcast_S_S2048x4096 : S_.BroadcastsInDim S2048x4096 (![] : Fin 0 → Fin S2048x4096.rank)
  reducesTo_S2048x4096_S_d0_1 : S2048x4096.ReducesTo [0, 1] S_
  bcast_S_S1024x4096 : S_.BroadcastsInDim S1024x4096 (![] : Fin 0 → Fin S1024x4096.rank)
  reducesTo_S1024x4096_S_d0_1 : S1024x4096.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S2097152 .f32) (main_arg1 : FVec F S2048x4096 .f32) (main_arg2 : FVec F S1024x4096 .f32) (main_arg3 : FVec F S1024 .f32) (main_arg4 : FVec F S1024 .f32) : IVec S_ 1 :=
  let main_v0 : FVec F S2097152 .f32 := Host.absf main_arg0
  let main_cst : FVec F S_ .f32 := constant S_ .f32 0x7F800000#32
  let main_v1 : FVec F S2097152 .f32 := broadcastInDim S2097152 ![] bcast_S_S2097152 main_cst
  let main_v2 : IVec S2097152 1 := cmpf .olt main_v0 main_v1
  let main_c : IVec S_ 1 := constantI S_ 1 1#1
  let main_v3 : IVec S_ 1 := (fun x v => Host.reduce IntOp.andi x v reducesTo_S2097152_S_d0 h_S_) main_v2 main_c
  let main_v4 : FVec F S2048x4096 .f32 := Host.absf main_arg1
  let main_cst_0 : FVec F S_ .f32 := constant S_ .f32 0x7F800000#32
  let main_v5 : FVec F S2048x4096 .f32 := broadcastInDim S2048x4096 ![] bcast_S_S2048x4096 main_cst_0
  let main_v6 : IVec S2048x4096 1 := cmpf .olt main_v4 main_v5
  let main_c_1 : IVec S_ 1 := constantI S_ 1 1#1
  let main_v7 : IVec S_ 1 := (fun x v => Host.reduce IntOp.andi x v reducesTo_S2048x4096_S_d0_1 h_S_) main_v6 main_c_1
  let main_v8 : IVec S_ 1 := andi main_v3 main_v7
  let main_v9 : FVec F S1024x4096 .f32 := Host.absf main_arg2
  let main_cst_2 : FVec F S_ .f32 := constant S_ .f32 0x7F800000#32
  let main_v10 : FVec F S1024x4096 .f32 := broadcastInDim S1024x4096 ![] bcast_S_S1024x4096 main_cst_2
  let main_v11 : IVec S1024x4096 1 := cmpf .olt main_v9 main_v10
  let main_c_3 : IVec S_ 1 := constantI S_ 1 1#1
  let main_v12 : IVec S_ 1 := (fun x v => Host.reduce IntOp.andi x v reducesTo_S1024x4096_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_v13 main_v16
-- ==== Kernel.lean ====
abbrev S2097152 : Shape := ⟨1, ![2097152]⟩
abbrev S2048x4096 : Shape := ⟨2, ![2048, 4096]⟩
abbrev S1024x4096 : Shape := ⟨2, ![1024, 4096]⟩
abbrev S1024 : Shape := ⟨1, ![1024]⟩
abbrev S2048x1024 : Shape := ⟨2, ![2048, 1024]⟩
abbrev S1x1024 : Shape := ⟨2, ![1, 1024]⟩
abbrev S256x1024 : Shape := ⟨2, ![256, 1024]⟩
abbrev S256x4096 : Shape := ⟨2, ![256, 4096]⟩
abbrev S1x8388608 : Shape := ⟨2, ![1, 8388608]⟩

abbrev nBuf : Space → Nat
  | .hbm => 12
  | .vmem => 13
  | .smem => 0
  | _ => 0

abbrev bufTy : (tb : Table) → Fin (tcTables nBuf tb) → BufTy
  | .hbm, ⟨0, _⟩ => ⟨S2097152, .f32⟩
  | .hbm, ⟨1, _⟩ => ⟨S2048x4096, .f32⟩
  | .hbm, ⟨2, _⟩ => ⟨S1024x4096, .f32⟩
  | .hbm, ⟨3, _⟩ => ⟨S1024, .f32⟩
  | .hbm, ⟨4, _⟩ => ⟨S1024, .f32⟩
  | .hbm, ⟨5, _⟩ => ⟨S2048x1024, .f32⟩
  | .hbm, ⟨6, _⟩ => ⟨S1x1024, .f32⟩
  | .hbm, ⟨7, _⟩ => ⟨S1x1024, .f32⟩
  | .hbm, ⟨8, _⟩ => ⟨S2048x1024, .bf16⟩
  | .hbm, ⟨9, _⟩ => ⟨S1024x4096, .bf16⟩
  | .hbm, ⟨10, _⟩ => ⟨S2048x4096, .f32⟩
  | .hbm, ⟨11, _⟩ => ⟨S1x8388608, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S1024x4096, .bf16⟩
  | .local _ .vmem, ⟨9, _⟩ => ⟨S256x4096, .f32⟩
  | .local _ .vmem, ⟨10, _⟩ => ⟨S256x4096, .f32⟩
  | .local _ .vmem, ⟨11, _⟩ => ⟨S256x4096, .f32⟩
  | .local _ .vmem, ⟨12, _⟩ => ⟨S256x4096, .f32⟩
  | _, _ => ⟨S2097152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x4096 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S2097152_S2048x1024 : S2097152.ShapeCasts S2048x1024
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  bitsLt_bf16_f32 : FTy.bits .bf16 < FTy.bits .f32
  packedbf16_S256x1024_S256x1024_0_0 : (Rect.unit (s := S256x1024) ![0, 0] S256x1024.size inb_S256x1024_S256x1024_0_0).PackedRows (EltTy.packing .bf16)
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S256x4096_S256x4096_0_0 : ∀ a, (![0, 0] : Fin 2 → Nat) a + S256x4096.size a ≤ S256x4096.size a
  h_S256x4096 : 0 < S256x4096.numel
  shapeCasts_S2048x4096_S1x8388608 : S2048x4096.ShapeCasts S1x8388608
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S2048x1024.size a
  hwx0_0 : ∀ i : grid0.Coords, EltTy.bits .f32 = 32 ∨ (Rect.block (s := S2048x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S2048x1024.size a
  hwx0_3 : ∀ i : grid0.Coords, EltTy.bits .bf16 = 32 ∨ (Rect.block (s := S2048x1024) S256x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x1024.size a ≤ S2048x1024.size a
  hwx1_0 : ∀ i : grid1.Coords, EltTy.bits .bf16 = 32 ∨ (Rect.block (s := S2048x1024) S256x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x4096.size a ≤ S1024x4096.size a
  hwx1_1 : ∀ i : grid1.Coords, EltTy.bits .bf16 = 32 ∨ (Rect.block (s := S1024x4096) S1024x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x4096.size a ≤ S2048x4096.size a
  hwx1_2 : ∀ i : grid1.Coords, EltTy.bits .f32 = 32 ∨ (Rect.block (s := S2048x4096) S256x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x4096.size a ≤ S2048x4096.size a
  hwx1_3 : ∀ i : grid1.Coords, EltTy.bits .f32 = 32 ∨ (Rect.block (s := S2048x4096) S256x4096.size (cc1_transform_3 i) (hinb1_3 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v3) S256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1024x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S256x4096.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S256x4096.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S2097152 : Shape := ⟨1, ![2097152]⟩
abbrev S2048x4096 : Shape := ⟨2, ![2048, 4096]⟩
abbrev S1024x4096 : Shape := ⟨2, ![1024, 4096]⟩
abbrev S1024 : Shape := ⟨1, ![1024]⟩
abbrev S2048x1024 : Shape := ⟨2, ![2048, 1024]⟩
abbrev S1x1024 : Shape := ⟨2, ![1, 1024]⟩
abbrev S_ : Shape := ⟨0, ![]⟩
abbrev S1x8388608 : Shape := ⟨2, ![1, 8388608]⟩

abbrev nBuf : Space → Nat
  | .hbm => 36
  | .vmem => 0
  | .smem => 0
  | _ => 0

abbrev bufTy : (tb : Table) → Fin (tcTables nBuf tb) → BufTy
  | .hbm, ⟨0, _⟩ => ⟨S2097152, .f32⟩
  | .hbm, ⟨1, _⟩ => ⟨S2048x4096, .f32⟩
  | .hbm, ⟨2, _⟩ => ⟨S1024x4096, .f32⟩
  | .hbm, ⟨3, _⟩ => ⟨S1024, .f32⟩
  | .hbm, ⟨4, _⟩ => ⟨S1024, .f32⟩
  | .hbm, ⟨5, _⟩ => ⟨S2048x1024, .f32⟩
  | .hbm, ⟨6, _⟩ => ⟨S1x1024, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048x1024, .f32⟩
  | .hbm, ⟨11, _⟩ => ⟨S2048x1024, .i1⟩
  | .hbm, ⟨12, _⟩ => ⟨S_, .f32⟩
  | .hbm, ⟨13, _⟩ => ⟨S2048x1024, .f32⟩
  | .hbm, ⟨14, _⟩ => ⟨S2048x1024, .i1⟩
  | .hbm, ⟨15, _⟩ => ⟨S2048x1024, .i1⟩
  | .hbm, ⟨16, _⟩ => ⟨S1x1024, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048x1024, .f32⟩
  | .hbm, ⟨21, _⟩ => ⟨S2048x1024, .i1⟩
  | .hbm, ⟨22, _⟩ => ⟨S_, .f32⟩
  | .hbm, ⟨23, _⟩ => ⟨S2048x1024, .f32⟩
  | .hbm, ⟨24, _⟩ => ⟨S2048x1024, .i1⟩
  | .hbm, ⟨25, _⟩ => ⟨S2048x1024, .i1⟩
  | .hbm, ⟨26, _⟩ => ⟨S2048x1024, .i1⟩
  | .hbm, ⟨27, _⟩ => ⟨S_, .f32⟩
  | .hbm, ⟨28, _⟩ => ⟨S_, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x4096, .f32⟩
  | .hbm, ⟨34, _⟩ => ⟨S2048x4096, .f32⟩
  | .hbm, ⟨35, _⟩ => ⟨S1x8388608, .f32⟩
  | _, _ => ⟨S2097152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_cst_4 : Ref sig .tc := ⟨.hbm, 28, rfl⟩
abbrev main_call0_v0 : Ref sig .tc := ⟨.hbm, 29, rfl⟩
abbrev main_call0_v1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩

abbrev nD : Nat := 1
abbrev τ : Topo := Topo.v7x

variable {F : FTy → Type} [FloatOps F]

class Facts₀ : Prop where
  shapeCasts_S2097152_S2048x1024 : S2097152.ShapeCasts S2048x1024
  bcast_S1024_S1x1024_1 : S1024.BroadcastsInDim S1x1024 (![1] : Fin 1 → Fin S1x1024.rank)
  bcast_S1x1024_S2048x1024_0_1 : S1x1024.BroadcastsInDim S2048x1024 (![0, 1] : Fin 2 → Fin S2048x1024.rank)
  bcast_S_S2048x1024 : S_.BroadcastsInDim S2048x1024 (![] : Fin 0 → Fin S2048x1024.rank)
  shapeCasts_S2048x4096_S1x8388608 : S2048x4096.ShapeCasts S1x8388608
  dot_S2048x1024_S1024x4096_S2048x4096_1_0_0_1_n_n_wf : DotDims.WF S2048x1024 S1024x4096 S2048x4096 [1] [0] [0] [1] [] []

variable [Facts₀]

def dot_S2048x1024_S1024x4096_S2048x4096_1_0_0_1_n_n : DotDims S2048x1024 S1024x4096 S2048x4096 where
  lhsContracting := [1]
  rhsContracting := [0]
  lhsNonContracting := [0]
  rhsNonContracting := [1]
  lhsBatch := []
  rhsBatch := []
  wf := dot_S2048x1024_S1024x4096_S2048x4096_1_0_0_1_n_n_wf

class Facts : Prop extends Facts₀ where

variable [Facts]
-- ==== Proof.Spec.lean ====
/-
  The arithmetic both programs compute, stated once over the extended reals.

  A shop s holds cur[s, c] units of each style-colour c.  A raw allocation p[s, b] of bundle b to shop s
  is damped: it is multiplied by 0.01 (the f32 nearest to it) when it over-draws the bundle's availability
  (avail[b] - p < 0 with p > 0) or over-returns its allocation (alloc[b] + p < 0 with p < 0), and by 1
  otherwise.  The next inventory is cur[s, c] + Σ_b damped[s, b] · bun[b, c].
-/
import Idealize.ShloMosaic.PureOps.Ideal
import Idealize.ShloMosaic.Lib.ValueIdx

noncomputable section

open scoped BigOperators
open Idealize.ShloMosaic Idealize.ShloMosaic.ValueIdx

namespace Cert.Inventory

/-- One damped allocation: `p` times 0.01 if it over-draws `a` or over-returns `l`, else `p` times 1.
    The comparisons are the extended reals' order; the three literals are kept as their f32 words. -/
def damp (p a l : EReal) : EReal :=
  FloatOps.mulf (F := Ideal) (φ := .f32) p
    (Scalar.select
      (IntOp.ori
        (IntOp.andi
          (FloatOps.cmpf (F := Ideal) (φ := .f32) .olt (FloatOps.subf (F := Ideal) (φ := .f32) a p) (FloatOps.ofBits (F := Ideal) .f32 0x00000000#32))
          (FloatOps.cmpf (F := Ideal) (φ := .f32) .ogt p (FloatOps.ofBits (F := Ideal) .f32 0x00000000#32)))
        (IntOp.andi
          (FloatOps.cmpf (F := Ideal) (φ := .f32) .olt (FloatOps.addf (F := Ideal) (φ := .f32) l p) (FloatOps.ofBits (F := Ideal) .f32 0x00000000#32))
          (FloatOps.cmpf (F := Ideal) (φ := .f32) .olt p (FloatOps.ofBits (F := Ideal) .f32 0x00000000#32))))
      (FloatOps.ofBits (F := Ideal) .f32 0x3C23D70A#32)
      (FloatOps.ofBits (F := Ideal) .f32 0x3F800000#32))

/-- The damped allocations of every shop and bundle, the availability and allocation read per bundle
    from ROW vectors [1, 1024] (the kernel's operands). -/
def dampedRows (p : (⟨2, ![2048, 1024]⟩ : Shape).Idx → EReal) (a2 l2 : (⟨2, ![1, 1024]⟩ : Shape).Idx → EReal) :
    (⟨2, ![2048, 1024]⟩ : Shape).Idx → EReal :=
  fun i => damp (p i) (a2 (ix2 0 (i 1))) (l2 (ix2 0 (i 1)))

/-- The damped allocations of every shop and bundle, from the rank-1 availability and allocation. -/
def damped (p : (⟨2, ![2048, 1024]⟩ : Shape).Idx → EReal) (avail alloc : (⟨1, ![1024]⟩ : Shape).Idx → EReal) :
    (⟨2, ![2048, 1024]⟩ : Shape).Idx → EReal :=
  fun i => damp (p i) (avail (ix1 (i 1))) (alloc (ix1 (i 1)))

/-- One entry of the next inventory: the current entry plus the sum over the 1024 bundles of weight times contents. -/
def stockUp (x : EReal) (w t : Fin 1024 → EReal) : EReal := x + ∑ k : Fin 1024, w k * t k

/-- The next inventory: the current one plus each bundle's contents weighted by its damped allocation. -/
def restock (pc : (⟨2, ![2048, 1024]⟩ : Shape).Idx → EReal) (bun : (⟨2, ![1024, 4096]⟩ : Shape).Idx → EReal)
    (cur : (⟨2, ![2048, 4096]⟩ : Shape).Idx → EReal) : (⟨2, ![2048, 4096]⟩ : Shape).Idx → EReal :=
  fun i => stockUp (cur i) (fun k => pc (ix2 (i 0) k)) (fun k => bun (ix2 k (i 1)))

/-- The whole result: the flat allocations laid out [2048, 1024] row-major, damped, the inventory restocked, and the
    [2048, 4096] result laid out flat as [1, 8388608]. -/
def nextInventory (proba : (⟨1, ![2097152]⟩ : Shape).Idx → EReal) (cur : (⟨2, ![2048, 4096]⟩ : Shape).Idx → EReal)
    (bun : (⟨2, ![1024, 4096]⟩ : Shape).Idx → EReal) (avail alloc : (⟨1, ![1024]⟩ : Shape).Idx → EReal) :
    (⟨2, ![1, 8388608]⟩ : Shape).Idx → EReal :=
  shapeCast (⟨2, ![1, 8388608]⟩ : Shape)
    (restock (damped (shapeCast (⟨2, ![2048, 1024]⟩ : Shape) proba (by decide)) avail alloc) bun cur) (by decide)

/-- Row vectors that are reshapes of rank-1 vectors read the rank-1 entry: the two forms of the damped allocations agree. -/
theorem dampedRows_of_rows (p : (⟨2, ![2048, 1024]⟩ : Shape).Idx → EReal) (avail alloc : (⟨1, ![1024]⟩ : Shape).Idx → EReal)
    (a2 l2 : (⟨2, ![1, 1024]⟩ : Shape).Idx → EReal)
    (ha : ∀ b : Fin 1024, a2 (ix2 0 b) = avail (ix1 b)) (hl : ∀ b : Fin 1024, l2 (ix2 0 b) = alloc (ix1 b)) :
    dampedRows p a2 l2 = damped p avail alloc := by
  funext i
  exact congrArg₂ (damp (p i)) (ha (i 1)) (hl (i 1))

end Cert.Inventory

end
-- ==== Proof.MaskRegion.lean ====
/-
  The first region: the damping kernel over eight row blocks of 256 shops.

  At a grid point the body loads a [256, 1024] block of raw allocations and the two [1, 1024] rows (availability,
  allocation), and stores, entry by entry, the damped allocation of the block's entry against the row entries of
  its column.  The blocks tile the [2048, 1024] array by rows, so after the region the output array is the damped
  allocation of every entry of the input array, whatever the contents the region was entered with.
-/
import proofs.«103881_j45466523795646_1_alg».proof.Proof.Gen.KernelIdeal.Frame
import proofs.«103881_j45466523795646_1_alg».proof.Proof.Spec
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.MaskRegion

open Cert.KernelIdeal Cert.KernelIdeal.Gen Cert.Inventory

variable (V : (c : Dev nD) → (b : Ref sig .tc) → Buf (Elt Ideal) ((c : Thread nD τ).loc b))

theorem hz : (![0, 0] : Fin 2 → Nat) = fun _ => 0 := funext fun a => by fin_cases a <;> rfl

/-- A row broadcast down 256 rows reads, at (r, b), the row's entry b. -/
theorem row_bcast (x : Vec Ideal S1x1024 .f32) (j : S256x1024.Idx) :
    broadcastTo S256x1024 x broadcasts_S1x1024_S256x1024 j = x (ix2 0 (j 1)) :=
  broadcastTo_apply x broadcasts_S1x1024_S256x1024 j (ix2 0 (j 1)) (fun a => match a with
    | ⟨0, _⟩ => by show 0 = if (1 : Nat) = 1 then 0 else _; rw [if_pos rfl]
    | ⟨1, _⟩ => by show (j 1).val = if (1024 : Nat) = 1 then 0 else (j 1).val; rw [if_neg (by decide)])

/-- What the body stores, entry by entry: the damped allocation of the block's entry against its column's row entries. -/
theorem pay_eq (x0 : Vec Ideal S256x1024 .f32) (x1 x2 : Vec Ideal S1x1024 .f32) :
    k0_pay1 (F := Ideal) x0 x1 x2 = fun j => damp (x0 j) (x1 (ix2 0 (j 1))) (x2 (ix2 0 (j 1))) := by
  funext j
  unfold k0_pay1
  simp only [shapeCast_self]
  show damp (x0 j) (broadcastTo S256x1024 x1 broadcasts_S1x1024_S256x1024 j) (broadcastTo S256x1024 x2 broadcasts_S1x1024_S256x1024 j) = _
  rw [row_bcast, row_bcast]

/-- The printed index maps over the grid: point t's input and output blocks are row block t, column block 0; the
    two rows are fetched from block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of the damped allocations of the arrays the region was entered with. -/
theorem flushed_eq (c : Dev nD) (t : Fin cfg0.N) :
    (dat0 V c).flushed 3 t = ((cfg0.win 3).blk t).view.read (Elt Ideal) (dampedRows (V c main_v0) (V c main_v1) (V c main_v2)) := by
  show (cfg0.win 3).cut (grid0.coords t) ((dat0 V c).after 3 t) = _
  rw [after0_3]
  unfold out0_3
  rw [View.canon_unit_zero hz]
  simp only [View.ld_unit_zero (S := S256x1024) hz, View.ld_unit_zero (S := S1x1024) hz]
  rw [pay_eq]
  obtain ⟨e00, e01, e10, e11, e20, e21, e30, e31⟩ := idx_facts t
  funext j
  show damp (V c main_v0 (((cfg0.win 0).blk t).view.emb j)) (V c main_v1 (((cfg0.win 1).blk t).view.emb (ix2 0 (j 1)))) (V c main_v2 (((cfg0.win 2).blk t).view.emb (ix2 0 (j 1))))
     = damp (V c main_v0 (((cfg0.win 3).blk t).view.emb j)) (V c main_v1 (ix2 0 ((((cfg0.win 3).blk t).view.emb j) 1))) (V c main_v2 (ix2 0 ((((cfg0.win 3).blk t).view.emb j) 1)))
  have h0 : ((cfg0.win 0).blk t).view.emb j = ((cfg0.win 3).blk t).view.emb j := by
    funext a; apply Fin.ext
    match a with
    | ⟨0, _⟩ => show win0_0.index t (0 : Fin 2) * 256 + 1 * (j 0).val = win0_3.index t (0 : Fin 2) * 256 + 1 * (j 0).val; omega
    | ⟨1, _⟩ => show win0_0.index t (1 : Fin 2) * 1024 + 1 * (j 1).val = win0_3.index t (1 : Fin 2) * 1024 + 1 * (j 1).val; omega
  have h1 : ((cfg0.win 1).blk t).view.emb (ix2 0 (j 1)) = ix2 0 ((((cfg0.win 3).blk t).view.emb j) 1) := by
    funext a; apply Fin.ext
    match a with
    | ⟨0, _⟩ => show win0_1.index t (0 : Fin 2) * 1 + 1 * 0 = 0; omega
    | ⟨1, _⟩ => show win0_1.index t (1 : Fin 2) * 1024 + 1 * (j 1).val = win0_3.index t (1 : Fin 2) * 1024 + 1 * (j 1).val; omega
  have h2 : ((cfg0.win 2).blk t).view.emb (ix2 0 (j 1)) = ix2 0 ((((cfg0.win 3).blk t).view.emb j) 1) := by
    funext a; apply Fin.ext
    match a with
    | ⟨0, _⟩ => show win0_2.index t (0 : Fin 2) * 1 + 1 * 0 = 0; omega
    | ⟨1, _⟩ => show win0_2.index t (1 : Fin 2) * 1024 + 1 * (j 1).val = win0_3.index t (1 : Fin 2) * 1024 + 1 * (j 1).val; omega
  rw [h0, h1, h2]
  rfl

/-- An index of the array is in point t's output block iff each coordinate is in the block's range on its axis. -/
theorem mem_blk (t : Fin cfg0.N) (i : S2048x1024.Idx) :
    i ∈ ((cfg0.win 3).blk t).view.set ↔ ∀ a : Fin 2, win0_3.index t a * S256x1024.size a ≤ (i a).val ∧ (i a).val < win0_3.index t a * S256x1024.size a + S256x1024.size a := by
  show i ∈ ((View.whole main_v3).slice (win0_3.rect t)).set ↔ _
  rw [View.set_slice_whole, Rect.mem_set_unit]
  exact Iff.rfl

/-- After the region the output array holds the damped allocation of every entry: row s is written by point s / 256. -/
theorem final (c : Dev nD) :
    (dat0 V c).arrAt 3 cfg0.N = dampedRows (V c main_v0) (V c main_v1) (V c main_v2) :=
  (dat0 V c).arrAt_eq_of_cover 3 (dampedRows (V c main_v0) (V c main_v1) (V c main_v2)) (fun t _ => flushed_eq V c t) fun i => by
    have hi0 : (i 0).val < 2048 := (i 0).isLt
    have hi1 : (i 1).val < 1024 := (i 1).isLt
    have hN : cfg0.N = 8 := N_0
    refine ⟨⟨(i 0).val / 256, by rw [hN]; omega⟩, flush0_3 _, ?_⟩
    obtain ⟨e00, e01, e10, e11, e20, e21, e30, e31⟩ := idx_facts ⟨(i 0).val / 256, by rw [hN]; omega⟩
    rw [mem_blk]
    intro a
    match a with
    | ⟨0, _⟩ =>
      show win0_3.index _ (0 : Fin 2) * 256 ≤ (i 0).val ∧ (i 0).val < win0_3.index _ (0 : Fin 2) * 256 + 256
      rw [e30]; show (i 0).val / 256 * 256 ≤ (i 0).val ∧ (i 0).val < (i 0).val / 256 * 256 + 256; omega
    | ⟨1, _⟩ =>
      show win0_3.index _ (1 : Fin 2) * 1024 ≤ (i 1).val ∧ (i 1).val < win0_3.index _ (1 : Fin 2) * 1024 + 1024
      rw [e31]; omega

end Cert.KernelIdeal.MaskRegion

end
-- ==== Proof.MatmulRegion.lean ====
/-
  The second region: the product-and-add kernel over eight row blocks of 256 shops.

  At a grid point the body loads a [256, 1024] block of damped allocations, the whole [1024, 4096] bundle table and a
  [256, 4096] block of the current inventory, and stores, at (r, c), the inventory entry plus the sum over the 1024
  bundles k of allocation (r, k) times table entry (k, c): a matrix product into a zero accumulator is that sum over
  the extended reals.  The blocks tile the [2048, 4096] arrays by rows, so after the region the output array is, at
  every (s, c), cur[s, c] + Σ_k pc[s, k] · bun[k, c] of the arrays the region was entered with.
-/
import proofs.«103881_j45466523795646_1_alg».proof.Proof.Gen.KernelIdeal.Frame
import proofs.«103881_j45466523795646_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.MatmulRegion

open Cert.KernelIdeal Cert.KernelIdeal.Gen Cert.Inventory

variable (V : (c : Dev nD) → (b : Ref sig .tc) → Buf (Elt Ideal) ((c : Thread nD τ).loc b))

theorem hz : (![0, 0] : Fin 2 → Nat) = fun _ => 0 := funext fun a => by fin_cases a <;> rfl

/-! The product's operand indices at output (r, c) and contraction coordinate k are (r, k) and (k, c). -/

theorem lhs_0 (i : S256x4096.Idx) (q : dot_S256x1024_S1024x4096_S256x4096_1_0_0_1_n_n.contr.Idx) :
    (dot_S256x1024_S1024x4096_S256x4096_1_0_0_1_n_n.lhsIdx i q 0).val = (i 0).val := by
  unfold DotDims.lhsIdx
  rw [dif_neg (show ¬(0 : Fin S256x1024.rank) ∈ dot_S256x1024_S1024x4096_S256x4096_1_0_0_1_n_n.lhsBatch by decide), dif_pos (show (0 : Fin S256x1024.rank) ∈ dot_S256x1024_S1024x4096_S256x4096_1_0_0_1_n_n.lhsNonContracting by decide)]
  rfl
theorem lhs_1 (i : S256x4096.Idx) (q : dot_S256x1024_S1024x4096_S256x4096_1_0_0_1_n_n.contr.Idx) :
    (dot_S256x1024_S1024x4096_S256x4096_1_0_0_1_n_n.lhsIdx i q 1).val = (q ⟨0, by decide⟩).val :=
  dot_S256x1024_S1024x4096_S256x4096_1_0_0_1_n_n.lhsIdx_val_of_single rfl i q
theorem rhs_0 (i : S256x4096.Idx) (q : dot_S256x1024_S1024x4096_S256x4096_1_0_0_1_n_n.contr.Idx) :
    (dot_S256x1024_S1024x4096_S256x4096_1_0_0_1_n_n.rhsIdx i q 0).val = (q ⟨0, by decide⟩).val :=
  dot_S256x1024_S1024x4096_S256x4096_1_0_0_1_n_n.rhsIdx_val_of_single rfl i q
theorem rhs_1 (i : S256x4096.Idx) (q : dot_S256x1024_S1024x4096_S256x4096_1_0_0_1_n_n.contr.Idx) :
    (dot_S256x1024_S1024x4096_S256x4096_1_0_0_1_n_n.rhsIdx i q 1).val = (i 1).val := by
  unfold DotDims.rhsIdx
  rw [dif_neg (show ¬(1 : Fin S1024x4096.rank) ∈ dot_S256x1024_S1024x4096_S256x4096_1_0_0_1_n_n.rhsBatch by decide), dif_pos (show (1 : Fin S1024x4096.rank) ∈ dot_S256x1024_S1024x4096_S256x4096_1_0_0_1_n_n.rhsNonContracting by decide)]
  rfl

/-- The block product at output entry (r, c): the sum over the 1024 bundles of allocation (r, k) times table entry (k, c). -/
theorem matmul_at (x0 : FVec Ideal S256x1024 .bf16) (x1 : FVec Ideal S1024x4096 .bf16) (r : Fin 256) (c : Fin 4096) :
    matmul (F := Ideal) dot_S256x1024_S1024x4096_S256x4096_1_0_0_1_n_n none x0 x1 (constant S256x4096 .f32 0x00000000#32) (ix2 r c)
      = ∑ k : Fin 1024, x0 (ix2 r k) * x1 (ix2 k c) := by
  simp only [matmul]
  rw [Ideal.matmul_constant_zero_apply, ← Equiv.sum_comp (contrEquiv1 dot_S256x1024_S1024x4096_S256x4096_1_0_0_1_n_n 1024 rfl rfl).symm]
  refine Finset.sum_congr rfl fun k _ => ?_
  have hk := contrEquiv1_symm_val dot_S256x1024_S1024x4096_S256x4096_1_0_0_1_n_n 1024 rfl rfl k
  have el : dot_S256x1024_S1024x4096_S256x4096_1_0_0_1_n_n.lhsIdx (ix2 r c) ((contrEquiv1 dot_S256x1024_S1024x4096_S256x4096_1_0_0_1_n_n 1024 rfl rfl).symm k) = ix2 r k := funext fun a => Fin.ext (by
    match a with
    | ⟨0, _⟩ => exact lhs_0 _ _
    | ⟨1, _⟩ => exact (lhs_1 _ _).trans hk)
  have er : dot_S256x1024_S1024x4096_S256x4096_1_0_0_1_n_n.rhsIdx (ix2 r c) ((contrEquiv1 dot_S256x1024_S1024x4096_S256x4096_1_0_0_1_n_n 1024 rfl rfl).symm k) = ix2 k c := funext fun a => Fin.ext (by
    match a with
    | ⟨0, _⟩ => exact (rhs_0 _ _).trans hk
    | ⟨1, _⟩ => exact rhs_1 _ _)
  rw [el, er]

/-- What the body stores at (r, c): the inventory entry stocked up by row r of the allocations against column c of the table. -/
theorem pay_at (x0 : Vec Ideal S256x1024 .bf16) (x1 : Vec Ideal S1024x4096 .bf16) (x2 : Vec Ideal S256x4096 .f32) (r : Fin 256) (c : Fin 4096) :
    k1_pay1 (F := Ideal) x0 x1 x2 (ix2 r c) = stockUp (x2 (ix2 r c)) (fun k => x0 (ix2 r k)) (fun k => x1 (ix2 k c)) := by
  unfold k1_pay1
  simp only [shapeCast_self]
  show x2 (ix2 r c) + matmul (F := Ideal) (φ₁ := .bf16) (φ₂ := .bf16) dot_S256x1024_S1024x4096_S256x4096_1_0_0_1_n_n none x0 x1 (constant S256x4096 .f32 0x00000000#32) (ix2 r c) = _
  rw [matmul_at]
  rfl

/-- The same as one function of the block index. -/
theorem pay_eq (x0 : Vec Ideal S256x1024 .bf16) (x1 : Vec Ideal S1024x4096 .bf16) (x2 : Vec Ideal S256x4096 .f32) :
    k1_pay1 (F := Ideal) x0 x1 x2 = fun j => stockUp (x2 j) (fun k => x0 (ix2 (j 0) k)) (fun k => x1 (ix2 k (j 1))) := by
  funext j
  obtain ⟨r, c, rfl⟩ : ∃ (r : Fin 256) (c : Fin 4096), j = ix2 r c := ⟨j 0, j 1, eq_ix2 j⟩
  exact pay_at x0 x1 x2 r c

/-- The printed index maps over the grid: point t's allocation, inventory and output blocks are row block t, column
    block 0; the bundle table is fetched whole from block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- What point t writes back is block t of the restocked inventory of the arrays the region was entered with. -/
theorem flushed_eq (c : Dev nD) (t : Fin cfg1.N) :
    (dat1 V c).flushed 3 t = ((cfg1.win 3).blk t).view.read (Elt Ideal) (restock (V c main_v3) (V c main_v4) (V c main_arg1)) := by
  show (cfg1.win 3).cut (grid1.coords t) ((dat1 V c).after 3 t) = _
  rw [after1_3]
  unfold out1_3
  rw [View.canon_unit_zero hz]
  simp only [View.ld_unit_zero (S := S256x1024) hz, View.ld_unit_zero (S := S1024x4096) hz, View.ld_unit_zero (S := S256x4096) hz]
  rw [pay_eq]
  obtain ⟨e00, e01, e10, e11, e20, e21, e30, e31⟩ := idx_facts t
  funext j
  show stockUp (V c main_arg1 (((cfg1.win 2).blk t).view.emb j))
        (fun k => V c main_v3 (((cfg1.win 0).blk t).view.emb (ix2 (j 0) k)))
        (fun k => V c main_v4 (((cfg1.win 1).blk t).view.emb (ix2 k (j 1))))
     = stockUp (V c main_arg1 (((cfg1.win 3).blk t).view.emb j))
        (fun k => V c main_v3 (ix2 ((((cfg1.win 3).blk t).view.emb j) 0) k))
        (fun k => V c main_v4 (ix2 k ((((cfg1.win 3).blk t).view.emb j) 1)))
  have h2 : ((cfg1.win 2).blk t).view.emb j = ((cfg1.win 3).blk t).view.emb j := by
    funext a; apply Fin.ext
    match a with
    | ⟨0, _⟩ => show win1_2.index t (0 : Fin 2) * 256 + 1 * (j 0).val = win1_3.index t (0 : Fin 2) * 256 + 1 * (j 0).val; omega
    | ⟨1, _⟩ => show win1_2.index t (1 : Fin 2) * 4096 + 1 * (j 1).val = win1_3.index t (1 : Fin 2) * 4096 + 1 * (j 1).val; omega
  have h0 : ∀ k : Fin 1024, ((cfg1.win 0).blk t).view.emb (ix2 (j 0) k) = ix2 ((((cfg1.win 3).blk t).view.emb j) 0) k := fun k => by
    funext a; apply Fin.ext
    match a with
    | ⟨0, _⟩ => show win1_0.index t (0 : Fin 2) * 256 + 1 * (j 0).val = win1_3.index t (0 : Fin 2) * 256 + 1 * (j 0).val; omega
    | ⟨1, _⟩ => show win1_0.index t (1 : Fin 2) * 1024 + 1 * k.val = k.val; omega
  have h1 : ∀ k : Fin 1024, ((cfg1.win 1).blk t).view.emb (ix2 k (j 1)) = ix2 k ((((cfg1.win 3).blk t).view.emb j) 1) := fun k => by
    funext a; apply Fin.ext
    match a with
    | ⟨0, _⟩ => show win1_1.index t (0 : Fin 2) * 1024 + 1 * k.val = k.val; omega
    | ⟨1, _⟩ => show win1_1.index t (1 : Fin 2) * 4096 + 1 * (j 1).val = win1_3.index t (1 : Fin 2) * 4096 + 1 * (j 1).val; omega
  exact congr (congr (congrArg stockUp (congrArg (V c main_arg1) h2)) (funext fun k => congrArg (V c main_v3) (h0 k)))
    (funext fun k => congrArg (V c main_v4) (h1 k))

/-- An index of the array is in point t's output block iff each coordinate is in the block's range on its axis. -/
theorem mem_blk (t : Fin cfg1.N) (i : S2048x4096.Idx) :
    i ∈ ((cfg1.win 3).blk t).view.set ↔ ∀ a : Fin 2, win1_3.index t a * S256x4096.size a ≤ (i a).val ∧ (i a).val < win1_3.index t a * S256x4096.size a + S256x4096.size a := by
  show i ∈ ((View.whole main_v5).slice (win1_3.rect t)).set ↔ _
  rw [View.set_slice_whole, Rect.mem_set_unit]
  exact Iff.rfl

/-- After the region the output array holds the restocked inventory at every entry: row s is written by point s / 256. -/
theorem final (c : Dev nD) :
    (dat1 V c).arrAt 3 cfg1.N = restock (V c main_v3) (V c main_v4) (V c main_arg1) :=
  (dat1 V c).arrAt_eq_of_cover 3 (restock (V c main_v3) (V c main_v4) (V c main_arg1)) (fun t _ => flushed_eq V c t) fun i => by
    have hi0 : (i 0).val < 2048 := (i 0).isLt
    have hi1 : (i 1).val < 4096 := (i 1).isLt
    have hN : cfg1.N = 8 := N_1
    refine ⟨⟨(i 0).val / 256, by rw [hN]; omega⟩, flush1_3 _, ?_⟩
    obtain ⟨e00, e01, e10, e11, e20, e21, e30, e31⟩ := idx_facts ⟨(i 0).val / 256, by rw [hN]; omega⟩
    rw [mem_blk]
    intro a
    match a with
    | ⟨0, _⟩ =>
      show win1_3.index _ (0 : Fin 2) * 256 ≤ (i 0).val ∧ (i 0).val < win1_3.index _ (0 : Fin 2) * 256 + 256
      rw [e30]; show (i 0).val / 256 * 256 ≤ (i 0).val ∧ (i 0).val < (i 0).val / 256 * 256 + 256; omega
    | ⟨1, _⟩ =>
      show win1_3.index _ (1 : Fin 2) * 4096 ≤ (i 1).val ∧ (i 1).val < win1_3.index _ (1 : Fin 2) * 4096 + 4096
      rw [e31]; omega

end Cert.KernelIdeal.MatmulRegion

end
-- ==== Proof.KernelValue.lean ====
/-
  The kernel program computes the specification.

  @main reshapes the flat allocations to [2048, 1024] and the availability and allocation vectors to rows, runs the
  damping region, narrows the bundle table to bf16 (the identity over the extended reals), runs the product-and-add
  region on the damped allocations, the table and the inventory, and lays its output out flat.  Reading the
  result buffer back through these segments — each region's output array by its region's value lemma, every other
  buffer as the segment before left it — gives the specification of the launch contents of the five arguments.
-/
import proofs.«103881_j45466523795646_1_alg».proof.Proof.NamedRun
import proofs.«103881_j45466523795646_1_alg».proof.Proof.MaskRegion
import proofs.«103881_j45466523795646_1_alg».proof.Proof.MatmulRegion
import Idealize.ShloMosaic.Lib.StableHlo.Run

set_option maxRecDepth 16384

noncomputable section

open Idealize.ShloMosaic Idealize.ShloMosaic.TcCoe Idealize.SL.Sem Idealize.ShloMosaic.ValueIdx Idealize.ShloMosaic.StableHlo

namespace Cert.KernelIdeal.Whole

open Cert.KernelIdeal Cert.KernelIdeal.Gen Cert.Inventory

variable (m : (ℓ : Loc nD τ sig) → Buf (Elt Ideal) ℓ) (ρ : Dev nD → PrngReg)

/-! ## What the damping region is entered with: the reshaped arguments -/

theorem entry_p (c : Dev nD) :
    V1 m ρ c main_v0 = shapeCast S2048x1024 (m ((c : Thread nD τ).loc main_arg0)) shapeCasts_S2097152_S2048x1024 := by
  show StableHlo.after hostOps0 (W0 m ρ c) (Proc.devRef .tc main_v0) = _
  after_results
  rfl

theorem entry_avail (c : Dev nD) :
    V1 m ρ c main_v1 = shapeCast S1x1024 (m ((c : Thread nD τ).loc main_arg3)) shapeCasts_S1024_S1x1024 := by
  show StableHlo.after hostOps0 (W0 m ρ c) (Proc.devRef .tc main_v1) = _
  after_results
  rfl

theorem entry_alloc (c : Dev nD) :
    V1 m ρ c main_v2 = shapeCast S1x1024 (m ((c : Thread nD τ).loc main_arg4)) shapeCasts_S1024_S1x1024 := by
  show StableHlo.after hostOps0 (W0 m ρ c) (Proc.devRef .tc main_v2) = _
  after_results
  rfl

/-- A rank-1 vector reshaped to a row reads its own entry. -/
theorem row_of_vec (x : S1024.Idx → EReal) (b : Fin 1024) :
    shapeCast S1x1024 x shapeCasts_S1024_S1x1024 (ix2 0 b) = x (ix1 b) :=
  shapeCast_apply x shapeCasts_S1024_S1x1024 (ix2 0 b) (ix1 b)
    (by rewrite [Shape.rowMajor_val_one, Shape.rowMajor_val_two]; show b.val = 0 * 1024 + b.val; omega)

/-! ## What the product-and-add region is entered with -/

/-- The damped allocations, as the damping region left them. -/
theorem entry_pc (c : Dev nD) :
    V3 m ρ c main_v3 = damped (shapeCast S2048x1024 (m ((c : Thread nD τ).loc main_arg0)) shapeCasts_S2097152_S2048x1024)
      (m ((c : Thread nD τ).loc main_arg3)) (m ((c : Thread nD τ).loc main_arg4)) := by
  have h : V3 m ρ c main_v3 = W2 m ρ c (Proc.devRef .tc main_v3) := by
    show StableHlo.after hostOps1 (W2 m ρ c) (Proc.devRef .tc main_v3) = _
    after_results
  rw [h]
  refine (W2_arr m ρ c 3).trans ((MaskRegion.final (V1 m ρ) c).trans ?_)
  rw [entry_p, entry_avail, entry_alloc]
  exact dampedRows_of_rows _ _ _ _ _ (row_of_vec _) (row_of_vec _)

/-- An argument no segment before the second region writes holds its launch contents there. -/
theorem W2_arg1 (c : Dev nD) : W2 m ρ c (Proc.devRef .tc main_arg1) = m ((c : Thread nD τ).loc main_arg1) := by
  rw [W2_of_ne m ρ c main_arg1 (by decide)]
  show StableHlo.after hostOps0 (W0 m ρ c) (Proc.devRef .tc main_arg1) = _
  after_results
  try rfl
theorem W2_arg2 (c : Dev nD) : W2 m ρ c (Proc.devRef .tc main_arg2) = m ((c : Thread nD τ).loc main_arg2) := by
  rw [W2_of_ne m ρ c main_arg2 (by decide)]
  show StableHlo.after hostOps0 (W0 m ρ c) (Proc.devRef .tc main_arg2) = _
  after_results
  try rfl

/-- The bundle table: narrowing to bf16 is the identity over the extended reals. -/
theorem entry_bun (c : Dev nD) : V3 m ρ c main_v4 = m ((c : Thread nD τ).loc main_arg2) := by
  show StableHlo.after hostOps1 (W2 m ρ c) (Proc.devRef .tc main_v4) = _
  after_results
  rw [W2_arg2]
  rfl

/-- The current inventory. -/
theorem entry_cur (c : Dev nD) : V3 m ρ c main_arg1 = m ((c : Thread nD τ).loc main_arg1) := by
  show StableHlo.after hostOps1 (W2 m ρ c) (Proc.devRef .tc main_arg1) = _
  after_results
  exact W2_arg1 m ρ c

/-! ## The result buffer -/

/-- The result buffer after the last segment is the specification of the launch contents of the arguments. -/
theorem result_eq (c : Dev nD) :
    W5 m ρ c (Proc.devRef .tc main_v6) = nextInventory (m ((c : Thread nD τ).loc main_arg0)) (m ((c : Thread nD τ).loc main_arg1))
      (m ((c : Thread nD τ).loc main_arg2)) (m ((c : Thread nD τ).loc main_arg3)) (m ((c : Thread nD τ).loc main_arg4)) := by
  have h : W5 m ρ c (Proc.devRef .tc main_v6) = shapeCast S1x8388608 (W4 m ρ c (Proc.devRef .tc main_v5)) shapeCasts_S2048x4096_S1x8388608 := by
    show StableHlo.after hostOps2 (W4 m ρ c) (Proc.devRef .tc main_v6) = _
    after_results
    rfl
  rw [h, show W4 m ρ c (Proc.devRef .tc main_v5) = _ from (W4_arr m ρ c 3).trans (MatmulRegion.final (V3 m ρ) c),
    entry_pc, entry_bun, entry_cur]
  rfl

/-- The run of @main at the extended reals: it terminates, nothing faults, the result buffer holds the specification
    of the arguments, and the arguments are unchanged. -/
theorem run : θ_run defs (onTc (τ := τ) (main (F := Ideal))) ⟨m, fun _ => 0, ρ⟩ (fun r => ∀ c : Dev nD,
      r.2.mem ((c.tc : Thread nD τ).loc main_v6) = nextInventory (m ((c : Thread nD τ).loc main_arg0)) (m ((c : Thread nD τ).loc main_arg1))
        (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result_eq m ρ c), (h c).2⟩) (Named.run_named m ρ)

end Cert.KernelIdeal.Whole

end
-- ==== Proof.RefValue.lean ====
/-
  The reference computes the specification.

  Its @main broadcasts the availability and allocation vectors over the 2048 shops, compares, selects the factor,
  multiplies, contracts the damped allocations with the bundle table over the 1024 bundles (a `dot_general`: at the
  extended reals the plain sum of products), adds the inventory and lays the result out flat.  Read at an index each
  stage is the specification's: the broadcasts read the rank-1 entry of the column, the contraction's operand
  indices are (s, k) and (k, c).
-/
import proofs.«103881_j45466523795646_1_alg».proof.Proof.Gen.ReferenceIdeal.Run
import proofs.«103881_j45466523795646_1_alg».proof.Proof.Gen.ReferenceIdeal.Read
import proofs.«103881_j45466523795646_1_alg».proof.Proof.Spec

noncomputable section

open scoped BigOperators
open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read Cert.Inventory

/-- The column's entry of a rank-1 vector broadcast to a row and then down the shops. -/
theorem col_idx (i : S2048x1024.Idx) : idx_main_v1 (idx_main_v2 i) = ix1 (i 1) :=
  funext fun a => match a with | ⟨0, _⟩ => rfl
theorem col_idx' (i : S2048x1024.Idx) : idx_main_v9 (idx_main_v10 i) = ix1 (i 1) :=
  funext fun a => match a with | ⟨0, _⟩ => rfl

/-- The reference's damped allocations are the specification's, entry by entry. -/
theorem damped_eq (x0 : (⟨S2097152, .f32⟩ : BufTy).Contents (Elt Ideal)) (x3 x4 : (⟨S1024, .f32⟩ : BufTy).Contents (Elt Ideal)) :
    val_main_v19 (F := Ideal) x0 x3 x4 = damped (val_main_v0 (F := Ideal) x0) x3 x4 := by
  funext i
  simp only [val_main_v19_apply, val_main_v18_apply, val_main_v17_apply, val_main_v8_apply, val_main_v16_apply,
    val_main_v5_apply, val_main_v7_apply, val_main_v13_apply, val_main_v15_apply, val_main_v3_apply, val_main_v11_apply,
    val_main_v2_apply, val_main_v1_apply, val_main_v10_apply, val_main_v9_apply, val_main_v4_apply, val_main_v6_apply,
    val_main_v12_apply, val_main_v14_apply, val_main_call0_v0_apply, val_main_call0_v1_apply, val_main_cst_apply,
    val_main_cst_0_apply, val_main_cst_1_apply, val_main_cst_2_apply, val_main_cst_3_apply, val_main_cst_4_apply,
    col_idx, col_idx']
  rfl

/-- The contraction's operand indices at output (s, c) and bundle k. -/
theorem lidx_eq (i : S2048x4096.Idx) (k : Fin 1024) : lidx_main_v20 i k = ix2 (i 0) k :=
  funext fun a => match a with | ⟨0, _⟩ => rfl | ⟨1, _⟩ => rfl
theorem ridx_eq (i : S2048x4096.Idx) (k : Fin 1024) : ridx_main_v20 i k = ix2 k (i 1) :=
  funext fun a => match a with | ⟨0, _⟩ => rfl | ⟨1, _⟩ => rfl

/-- The reference's result is the specification of its arguments. -/
theorem result_eq (x0 : (⟨S2097152, .f32⟩ : BufTy).Contents (Elt Ideal)) (x1 : (⟨S2048x4096, .f32⟩ : BufTy).Contents (Elt Ideal))
    (x2 : (⟨S1024x4096, .f32⟩ : BufTy).Contents (Elt Ideal)) (x3 x4 : (⟨S1024, .f32⟩ : BufTy).Contents (Elt Ideal)) :
    val_main_v22 (F := Ideal) x0 x1 x2 x3 x4 = nextInventory x0 x1 x2 x3 x4 := by
  have h21 : val_main_v21 (F := Ideal) x0 x1 x2 x3 x4 = restock (damped (val_main_v0 (F := Ideal) x0) x3 x4) x2 x1 := by
    funext i
    rw [val_main_v21_apply, val_main_v20_apply, damped_eq]
    exact congrArg (x1 i + ·) (Finset.sum_congr rfl fun k _ => by rw [lidx_eq, ridx_eq]; rfl)
  unfold val_main_v22
  rw [h21]
  rfl

end Cert.ReferenceIdeal.RefValue

end
-- ==== Proof.lean ====
/-
  The certificate: a two-kernel inventory update against its jnp reference, over the extended reals.

  Both programs compute, for 2048 shops s and 4096 style-colours c,
      next[s, c] = cur[s, c] + Σ_b p[s, b] · cm[s, b] · bun[b, c],
  where p is the flat allocation vector read [2048, 1024] row-major and cm[s, b] is 0.01 (its f32 word) when the
  allocation over-draws the bundle's availability or over-returns its allocation, and 1 otherwise; the result is
  laid out flat.  The kernel damps p in one pass over eight row blocks, narrows both matrix operands to bf16 — the
  identity over the extended reals — and multiplies and adds in a second pass over eight row blocks; a matrix
  product into a zero accumulator and the host's contraction are the same sum of products there, in the same order
  of factors, so no finiteness is used: the precondition is never opened.

  The three frames are the generated ones (the reference's is its generated run with the result dropped); the
  ideal pass rewrote nothing, so the kernel's idealization is the program's own text; the value claim puts the
  kernel's run (the result buffer read back through @main's segments) beside the reference's run, both at the one
  specification `Cert.Inventory.nextInventory` of the arguments.
-/
import proofs.«103881_j45466523795646_1_alg».proof.Defs
import proofs.«103881_j45466523795646_1_alg».proof.Proof.Gen.Kernel
import proofs.«103881_j45466523795646_1_alg».proof.Proof.Gen.Kernel.Skeleton
import proofs.«103881_j45466523795646_1_alg».proof.Proof.Gen.Kernel.Launch
import proofs.«103881_j45466523795646_1_alg».proof.Proof.Gen.Kernel.Points
import proofs.«103881_j45466523795646_1_alg».proof.Proof.Gen.Kernel.Frame
import proofs.«103881_j45466523795646_1_alg».proof.Proof.Gen.KernelIdeal
import proofs.«103881_j45466523795646_1_alg».proof.Proof.Gen.KernelIdeal.Skeleton
import proofs.«103881_j45466523795646_1_alg».proof.Proof.Gen.KernelIdeal.Launch
import proofs.«103881_j45466523795646_1_alg».proof.Proof.Gen.KernelIdeal.Points
import proofs.«103881_j45466523795646_1_alg».proof.Proof.Gen.KernelIdeal.Frame
import proofs.«103881_j45466523795646_1_alg».proof.Proof.Gen.ReferenceIdeal
import proofs.«103881_j45466523795646_1_alg».proof.Proof.Gen.ReferenceIdeal.Run
import proofs.«103881_j45466523795646_1_alg».proof.Proof.Gen.ReferenceIdeal.Read
import proofs.«103881_j45466523795646_1_alg».proof.Proof.Gen.Pre_finite_inputs
import proofs.«103881_j45466523795646_1_alg».proof.Proof.KernelValue
import proofs.«103881_j45466523795646_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the five arguments both programs end with the result buffer at the specification
    of those arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.ReferenceIdeal.RefValue.result_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
